-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  reducesTo_S_S_d : S_.ReducesTo [] S_

variable [Facts]

def fn_part1 {F : FTy → Type} [FloatOps F] (main_arg4 : FVec F S_ .f32) (main_v13 : IVec S_ 1) (main_v16 : IVec S64x512x512 1) : IVec S_ 1 :=
  let main_c_5 : IVec S_ 1 := constantI S_ 1 1#1
  let main_v17 : IVec S_ 1 := (fun x v => Host.reduce IntOp.andi x v reducesTo_S64x512x512_S_d0_1_2 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S64x512x512 .f32) (main_arg1 : FVec F S64x512x512 .f32) (main_arg2 : FVec F S64x512x512 .f32) (main_arg3 : FVec F S64x512x512 .f32) (main_arg4 : FVec F S_ .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512x512 .f32 := Host.absf main_arg2
  let main_cst_2 : FVec F S_ .f32 := constant S_ .f32 0x7F800000#32
  let main_v10 : FVec F S64x512x512 .f32 := broadcastInDim S64x512x512 ![] bcast_S_S64x512x512 main_cst_2
  let main_v11 : IVec S64x512x512 1 := cmpf .olt main_v9 main_v10
  let main_c_3 : IVec S_ 1 := constantI S_ 1 1#1
  let main_v12 : IVec S_ 1 := (fun x v => Host.reduce IntOp.andi x v reducesTo_S64x512x512_S_d0_1_2 h_S_) main_v11 main_c_3
  let main_v13 : IVec S_ 1 := andi main_v8 main_v12
  let main_v14 : FVec F S64x512x512 .f32 := Host.absf main_arg3
  let main_cst_4 : FVec F S_ .f32 := constant S_ .f32 0x7F800000#32
  let main_v15 : FVec F S64x512x512 .f32 := broadcastInDim S64x512x512 ![] bcast_S_S64x512x512 main_cst_4
  let main_v16 : IVec S64x512x512 1 := cmpf .olt main_v14 main_v15
  fn_part1 (F := F) main_arg4 main_v13 main_v16
-- ==== Kernel.lean ====
abbrev S64x512x512 : Shape := ⟨3, ![64, 512, 512]⟩
abbrev S_ : Shape := ⟨0, ![]⟩
abbrev S1x512x512 : Shape := ⟨3, ![1, 512, 512]⟩
abbrev S512x512 : Shape := ⟨2, ![512, 512]⟩

abbrev nBuf : Space → Nat
  | .hbm => 7
  | .vmem => 12
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x512x512, .f32⟩
  | .hbm, ⟨3, _⟩ => ⟨S64x512x512, .f32⟩
  | .hbm, ⟨4, _⟩ => ⟨S_, .f32⟩
  | .hbm, ⟨5, _⟩ => ⟨S64x512x512, .f32⟩
  | .hbm, ⟨6, _⟩ => ⟨S64x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  bitsLt_bf16_f32 : FTy.bits .bf16 < FTy.bits .f32
  shapeCasts_S512x512_S1x512x512 : S512x512.ShapeCasts S1x512x512
  dot_S512x512_S512x512_S512x512_1_0_0_1_n_n_wf : DotDims.WF S512x512 S512x512 S512x512 [1] [0] [0] [1] [] []
  dot_S512x512_S512x512_S512x512_0_0_1_1_n_n_wf : DotDims.WF S512x512 S512x512 S512x512 [0] [0] [1] [1] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .f32 = 32 ∨ (Rect.block (s := S64x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S64x512x512.size a
  hwx0_3 : ∀ i : grid0.Coords, EltTy.bits .f32 = 32 ∨ (Rect.block (s := S64x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S64x512x512.size a
  hwx0_4 : ∀ i : grid0.Coords, EltTy.bits .f32 = 32 ∨ (Rect.block (s := S64x512x512) S1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S64x512x512.size a
  hwx0_5 : ∀ i : grid0.Coords, EltTy.bits .f32 = 32 ∨ (Rect.block (s := S64x512x512) S1x512x512.size (cc0_transform_5 i) (hinb0_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x512x512, .f32⟩
  | .hbm, ⟨3, _⟩ => ⟨S64x512x512, .f32⟩
  | .hbm, ⟨4, _⟩ => ⟨S_, .f32⟩
  | .hbm, ⟨5, _⟩ => ⟨S64x512x512, .f32⟩
  | .hbm, ⟨6, _⟩ => ⟨S64x512x512, .f32⟩
  | .hbm, ⟨7, _⟩ => ⟨S_, .f32⟩
  | .hbm, ⟨8, _⟩ => ⟨S64x512x512, .f32⟩
  | .hbm, ⟨9, _⟩ => ⟨S64x512x512, .f32⟩
  | .hbm, ⟨10, _⟩ => ⟨S64x512x512, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S64x512x512, .f32⟩
  | .hbm, ⟨15, _⟩ => ⟨S64x512x512, .f32⟩
  | .hbm, ⟨16, _⟩ => ⟨S64x512x512, .f32⟩
  | .hbm, ⟨17, _⟩ => ⟨S64x512x512, .f32⟩
  | .hbm, ⟨18, _⟩ => ⟨S64x512x512, .f32⟩
  | .hbm, ⟨19, _⟩ => ⟨S64x512x512, .f32⟩
  | .hbm, ⟨20, _⟩ => ⟨S64x512x512, .f32⟩
  | .hbm, ⟨21, _⟩ => ⟨S64x512x512, .f32⟩
  | .hbm, ⟨22, _⟩ => ⟨S64x512x512, .f32⟩
  | .hbm, ⟨23, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  transposes_S64x512x512_S64x512x512_0_2_1 : S64x512x512.Transposes [0, 2, 1] S64x512x512
  bcast_S_S64x512x512 : S_.BroadcastsInDim S64x512x512 (![] : Fin 0 → Fin S64x512x512.rank)
  dot_S64x512x512_S64x512x512_S64x512x512_2_1_1_2_0_0_wf : DotDims.WF S64x512x512 S64x512x512 S64x512x512 [2] [1] [1] [2] [0] [0]

variable [Facts₀]

def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Spec.lean ====
/-
  The two velocity fields, as functions of the argument arrays, entry by entry, on the extended reals.

  For one batch, with `U`, `Λ`, `A`, `G` four 512 × 512 matrices and `Ω = ½ (A − Aᵀ)` the skew part of `A`:

    forward velocity   `dU = U Ω + (G − U (Uᵀ G))`
    adjoint velocity   `dΛ = Λ A + (Λ Gᵀ + G Λᵀ) U`

  Every product is a sum over the one shared axis of 512 entries. Three kinds of product occur: rows by columns
  (`X Y`), the left factor read through its columns (`Xᵀ Y`), the right factor read through its rows (`X Yᵀ`).
  The arrays of 64 batches are these formulas batch by batch. Nothing here names a program: both programs are
  later shown to compute exactly these sums, in this arrangement, so no law of the extended reals beyond the
  definitions is needed and the inputs' finiteness is never used.
-/
import Idealize.ShloMosaic.PureOps.Ideal
import Idealize.ShloMosaic.Lib.ValueIdx

noncomputable section

namespace Cert.Velocity

open Idealize.ShloMosaic Idealize.ShloMosaic.ValueIdx

/-- A 512 × 512 matrix of extended reals. -/
abbrev Mat : Type := (⟨2, ![512, 512]⟩ : Shape).Idx → EReal
/-- 64 such matrices. -/
abbrev Arr : Type := (⟨3, ![64, 512, 512]⟩ : Shape).Idx → EReal

/-- The constant one half, as the word both programs spell it with. -/
def half : EReal := Ideal.ofBits .f32 0x3F000000#32

/-- `X Y`: entry `(p, q)` is `∑ k, X (p, k) · Y (k, q)`. -/
def mul (X Y : Mat) : Mat := fun i => ∑ k : Fin 512, X (ix2 (i 0) k) * Y (ix2 k (i 1))
/-- `Xᵀ Y`: entry `(p, q)` is `∑ k, X (k, p) · Y (k, q)`. -/
def tmul (X Y : Mat) : Mat := fun i => ∑ k : Fin 512, X (ix2 k (i 0)) * Y (ix2 k (i 1))
/-- `X Yᵀ`: entry `(p, q)` is `∑ k, X (p, k) · Y (q, k)`. -/
def mult (X Y : Mat) : Mat := fun i => ∑ k : Fin 512, X (ix2 (i 0) k) * Y (ix2 (i 1) k)

/-- The skew part `½ (A − Aᵀ)`. -/
def skew (A : Mat) : Mat := fun i => half * (A i - A (ix2 (i 1) (i 0)))

/-- The forward velocity `U Ω + (G − U (Uᵀ G))`. -/
def fwd (U A G : Mat) : Mat := fun i => mul U (skew A) i + (G i - mul U (tmul U G) i)

/-- The adjoint velocity `Λ A + (Λ Gᵀ + G Λᵀ) U`. -/
def adj (U L A G : Mat) : Mat := fun i => mul L A i + mul (fun j => mult L G j + mult G L j) U i

/-- Batch `b` of an array. -/
def slab (X : Arr) (b : Fin 64) : Mat := fun i => X (ix3 b (i 0) (i 1))

/-- The forward velocity of every batch. -/
def fwdArr (u A G : Arr) : Arr := fun i => fwd (slab u (i 0)) (slab A (i 0)) (slab G (i 0)) (ix2 (i 1) (i 2))

/-- The adjoint velocity of every batch. -/
def adjArr (u l A G : Arr) : Arr :=
  fun i => adj (slab u (i 0)) (slab l (i 0)) (slab A (i 0)) (slab G (i 0)) (ix2 (i 1) (i 2))

end Cert.Velocity

end
-- ==== Proof.Products.lean ====
/-
  The kernel's three kinds of matrix product, read at the ideal values.

  The body multiplies 512 × 512 blocks seven times, each time into a zero accumulator, contracting one axis of each
  factor: the left factor's columns against the right factor's rows (`X Y`), rows against rows (`Xᵀ Y`), or
  columns against columns (`X Yᵀ`). At the ideal values such a product is, entry by entry, the plain sum over the
  contracted axis of the products of the two entries: no rounding, no order of accumulation, and a change of float
  format of a factor is the identity. Each lemma says so for one kind, as an equation between whole matrices.
-/
import proofs.«115201_j79233556677072_1_alg».proof.Proof.Gen.KernelIdeal
import proofs.«115201_j79233556677072_1_alg».proof.Proof.LibDot
import proofs.«115201_j79233556677072_1_alg».proof.Proof.Spec
import Idealize.ShloMosaic.PureOps.Ideal.Laws
import Idealize.ShloMosaic.Lib.ValueIdx

noncomputable section

namespace Cert.KernelIdeal.Products

open Idealize.ShloMosaic Idealize.ShloMosaic.ValueIdx Cert.KernelIdeal Cert.KernelIdeal.Gen Cert.Velocity

/-! ## Rows by columns -/

/-- `X Y`, the left factor's second axis against the right factor's first. -/
theorem matmul_rc {φ₁ φ₂ : FTy} (X : FVec Ideal S512x512 φ₁) (Y : FVec Ideal S512x512 φ₂) :
    matmul dot_S512x512_S512x512_S512x512_1_0_0_1_n_n none X Y (constant S512x512 .f32 0x00000000#32) = mul X Y := by
  funext i
  obtain ⟨p, q, rfl⟩ : ∃ (p q : Fin 512), i = ix2 p q := ⟨i 0, i 1, eq_ix2 i⟩
  exact Cert.GNN.matmul_plain_zero_apply (M := 512) (K := 512) (N := 512) none X Y p q

/-! ## The left factor read through its columns -/

theorem lhs_tl_0 (i : S512x512.Idx) (q : dot_S512x512_S512x512_S512x512_0_0_1_1_n_n.contr.Idx) :
    (dot_S512x512_S512x512_S512x512_0_0_1_1_n_n.lhsIdx i q 0).val = (q ⟨0, by decide⟩).val :=
  dot_S512x512_S512x512_S512x512_0_0_1_1_n_n.lhsIdx_val_of_single rfl i q
theorem lhs_tl_1 (i : S512x512.Idx) (q : dot_S512x512_S512x512_S512x512_0_0_1_1_n_n.contr.Idx) :
    (dot_S512x512_S512x512_S512x512_0_0_1_1_n_n.lhsIdx i q 1).val = (i 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
theorem rhs_tl_0 (i : S512x512.Idx) (q : dot_S512x512_S512x512_S512x512_0_0_1_1_n_n.contr.Idx) :
    (dot_S512x512_S512x512_S512x512_0_0_1_1_n_n.rhsIdx i q 0).val = (q ⟨0, by decide⟩).val :=
  dot_S512x512_S512x512_S512x512_0_0_1_1_n_n.rhsIdx_val_of_single rfl i q
theorem rhs_tl_1 (i : S512x512.Idx) (q : dot_S512x512_S512x512_S512x512_0_0_1_1_n_n.contr.Idx) :
    (dot_S512x512_S512x512_S512x512_0_0_1_1_n_n.rhsIdx i q 1).val = (i 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

/-- `Xᵀ Y`: both factors contracted on their first axis. -/
theorem matmul_tl {φ₁ φ₂ : FTy} (X : FVec Ideal S512x512 φ₁) (Y : FVec Ideal S512x512 φ₂) :
    matmul dot_S512x512_S512x512_S512x512_0_0_1_1_n_n none X Y (constant S512x512 .f32 0x00000000#32) = tmul X Y := by
  funext i
  obtain ⟨p, q, rfl⟩ : ∃ (p q : Fin 512), i = ix2 p q := ⟨i 0, i 1, eq_ix2 i⟩
  simp only [matmul]
  rw [Ideal.matmul_constant_zero_apply, ← Equiv.sum_comp (contrEquiv1 dot_S512x512_S512x512_S512x512_0_0_1_1_n_n 512 rfl rfl).symm]
  refine Finset.sum_congr rfl fun k _ => ?_
  have hk := contrEquiv1_symm_val dot_S512x512_S512x512_S512x512_0_0_1_1_n_n 512 rfl rfl k
  have el : dot_S512x512_S512x512_S512x512_0_0_1_1_n_n.lhsIdx (ix2 p q) ((contrEquiv1 dot_S512x512_S512x512_S512x512_0_0_1_1_n_n 512 rfl rfl).symm k) = ix2 k p := funext fun a => Fin.ext (by
    match a with
    | ⟨0, _⟩ => exact (lhs_tl_0 _ _).trans hk
    | ⟨1, _⟩ => exact lhs_tl_1 _ _)
  have er : dot_S512x512_S512x512_S512x512_0_0_1_1_n_n.rhsIdx (ix2 p q) ((contrEquiv1 dot_S512x512_S512x512_S512x512_0_0_1_1_n_n 512 rfl rfl).symm k) = ix2 k q := funext fun a => Fin.ext (by
    match a with
    | ⟨0, _⟩ => exact (rhs_tl_0 _ _).trans hk
    | ⟨1, _⟩ => exact rhs_tl_1 _ _)
  rw [el, er]

/-! ## The right factor read through its rows -/

theorem lhs_tr_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_tr_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_tr_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_tr_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- `X Yᵀ`: both factors contracted on their second axis. -/
theorem matmul_tr {φ₁ φ₂ : FTy} (X : FVec Ideal S512x512 φ₁) (Y : FVec Ideal S512x512 φ₂) :
    matmul dot_S512x512_S512x512_S512x512_1_1_0_0_n_n none X Y (constant S512x512 .f32 0x00000000#32) = mult X Y := by
  funext i
  obtain ⟨p, q, rfl⟩ : ∃ (p q : Fin 512), i = ix2 p q := ⟨i 0, i 1, eq_ix2 i⟩
  simp only [matmul]
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p q) ((contrEquiv1 dot_S512x512_S512x512_S512x512_1_1_0_0_n_n 512 rfl rfl).symm k) = ix2 p k := funext fun a => Fin.ext (by
    match a with
    | ⟨0, _⟩ => exact lhs_tr_0 _ _
    | ⟨1, _⟩ => exact (lhs_tr_1 _ _).trans hk)
  have er : dot_S512x512_S512x512_S512x512_1_1_0_0_n_n.rhsIdx (ix2 p q) ((contrEquiv1 dot_S512x512_S512x512_S512x512_1_1_0_0_n_n 512 rfl rfl).symm k) = ix2 q k := funext fun a => Fin.ext (by
    match a with
    | ⟨0, _⟩ => exact rhs_tr_0 _ _
    | ⟨1, _⟩ => exact (rhs_tr_1 _ _).trans hk)
  rw [el, er]

end Cert.KernelIdeal.Products

end
-- ==== Proof.Payload.lean ====
/-
  What the kernel's body computes for one batch, at the ideal values.

  The body loads one batch of each argument as a 1 × 512 × 512 block, reads it as a 512 × 512 matrix, and stores two
  1 × 512 × 512 blocks. The first stored block is the forward velocity of the loaded `u`, `A`, `G` matrices, the second
  the adjoint velocity of the loaded `u`, `λ`, `A`, `G` matrices: the body's transposition is a swap of the two
  coordinates, its seven products are the three kinds of sums of the products module, the roundings of the factors to a
  shorter float format are the identity, and the sums and differences are entry by entry. Entry `(0, n, p)` of a stored
  block is entry `(n, p)` of the matrix.
-/
import proofs.«115201_j79233556677072_1_alg».proof.Proof.Gen.KernelIdeal.Skeleton
import proofs.«115201_j79233556677072_1_alg».proof.Proof.Products
import Idealize.ShloMosaic.Lib.Pipeline.Value

noncomputable section

namespace Cert.KernelIdeal.Payload

open Idealize.ShloMosaic Idealize.ShloMosaic.ValueIdx Cert.KernelIdeal Cert.KernelIdeal.Gen Cert.Velocity
open Cert.KernelIdeal.Products

/-- A loaded 1 × 512 × 512 block as a matrix: entry `(n, p)` is the block's entry `(0, n, p)`. -/
def mat (v : Vec Ideal S1x512x512 .f32) : Mat := fun i => v (ix3 0 (i 0) (i 1))

/-- Dropping the unit axis keeps the entries in place. -/
theorem drop_unit (v : Vec Ideal S1x512x512 .f32) :
    shapeCast S512x512 v shapeCasts_S1x512x512_S512x512 = mat v := by
  funext i
  refine shapeCast_apply v shapeCasts_S1x512x512_S512x512 i (ix3 0 (i 0) (i 1)) ?_
  rw [Shape.rowMajor_val_three, Shape.rowMajor_val_two]
  show ((0 : Fin 1).val * 512 + (i 0).val) * 512 + (i 1).val = (i 0).val * 512 + (i 1).val
  simp

/-- Adding it back does too: entry `y` of the block is entry `(y 1, y 2)` of the matrix. -/
theorem add_unit_apply (W : FVec Ideal S512x512 .f32) (y : S1x512x512.Idx) :
    shapeCast S1x512x512 W shapeCasts_S512x512_S1x512x512 y = W (ix2 (y 1) (y 2)) := by
  have hy0 : (y 0).val < 1 := (y 0).isLt
  refine shapeCast_apply W shapeCasts_S512x512_S1x512x512 y (ix2 (y 1) (y 2)) ?_
  rw [Shape.rowMajor_val_three, Shape.rowMajor_val_two]
  show (y 1).val * 512 + (y 2).val = ((y 0).val * 512 + (y 1).val) * 512 + (y 2).val
  omega

/-- The body's transposition swaps the two coordinates. -/
theorem swap_axes (X : FVec Ideal S512x512 .f32) :
    transpose S512x512 [1, 0] X transposes_S512x512_p1_0_S512x512 = fun i => X (ix2 (i 1) (i 0)) := by
  funext i
  exact transpose_apply [1, 0] X transposes_S512x512_p1_0_S512x512 i (ix2 (i 1) (i 0)) (fun b => match b with
    | ⟨0, _⟩ => rfl
    | ⟨1, _⟩ => rfl)

/-- The first stored block is the forward velocity of the loaded matrices, with the unit axis added back. -/
theorem first_store (v0 v4 v6 : Vec Ideal S1x512x512 .f32) :
    k0_pay6 (F := Ideal) v0 v4 v6
      = shapeCast S1x512x512 (fwd (mat v0) (mat v4) (mat v6)) shapeCasts_S512x512_S1x512x512 := by
  unfold k0_pay6 k0_pay5 k0_pay2 k0_pay3 k0_pay4
  dsimp only
  rw [drop_unit v0, drop_unit v4, drop_unit v6, swap_axes]
  simp only [matmul_rc, matmul_tl]
  rfl

/-- The value the second store writes is the adjoint velocity of the loaded matrices. -/
theorem second_value (v0 v2 v4 v6 : Vec Ideal S1x512x512 .f32) :
    k0_pay7 (F := Ideal) v0 v2 v4 v6 = adj (mat v0) (mat v2) (mat v4) (mat v6) := by
  unfold k0_pay7 k0_pay2 k0_pay4 k0_pay5 k0_pay3
  dsimp only
  rw [drop_unit v0, drop_unit v2, drop_unit v4, drop_unit v6]
  simp only [matmul_rc, matmul_tr]
  rfl

/-- Entry `y` of the first stored block. -/
theorem first_store_apply (v0 v4 v6 : Vec Ideal S1x512x512 .f32) (y : S1x512x512.Idx) :
    k0_pay6 (F := Ideal) v0 v4 v6 y = fwd (mat v0) (mat v4) (mat v6) (ix2 (y 1) (y 2)) := by
  rw [first_store]
  exact add_unit_apply _ y

/-- Entry `y` of the second stored block. -/
theorem second_store_apply (v0 v2 v4 v6 : Vec Ideal S1x512x512 .f32) (y : S1x512x512.Idx) :
    k0_pay1 (F := Ideal) (k0_pay7 v0 v2 v4 v6) y = adj (mat v0) (mat v2) (mat v4) (mat v6) (ix2 (y 1) (y 2)) := by
  rw [second_value]
  unfold k0_pay1
  exact add_unit_apply _ y

end Cert.KernelIdeal.Payload

end
-- ==== Proof.Whole.lean ====
/-
  From blocks to arrays: after the kernel's run the two result arrays are the specification's velocity arrays.

  The grid has 64 points, and at point `t` every window's block is batch `t` of its array, whole: block index
  `(t, 0, 0)` of blocks of 1 × 512 × 512 entries. So each input block, read as a matrix, is batch `t` of its
  argument; what the body stores for the two outputs is the forward and the adjoint velocity of those matrices; and
  written back at `(t, ·, ·)` that is block `t` of the velocity array of the whole arguments. The 64 blocks cover each
  result array, every index lying in the block of its own batch, so each result array ends holding the velocity array.
-/
import proofs.«115201_j79233556677072_1_alg».proof.Proof.Gen.KernelIdeal.Value
import proofs.«115201_j79233556677072_1_alg».proof.Proof.Payload

noncomputable section

namespace Cert.KernelIdeal.Whole

open Cert.KernelIdeal Cert.KernelIdeal.Gen Idealize.ShloMosaic Idealize.ShloMosaic.TcCoe Idealize.SL.Sem
open Idealize.ShloMosaic.ValueIdx Cert.Velocity Cert.KernelIdeal.Payload
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The batch a grid point works on. -/
def batch (t : Fin cfg0.N) : Fin 64 := Fin.cast N_0 t

/-! ## The index maps, decided over the 64 points: each window's block at point `t` is block `(t, 0, 0)` -/

theorem idx_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_5 : ∀ t : Fin cfg0.N, win0_5.index t (0 : Fin 3) = t.val ∧ win0_5.index t (1 : Fin 3) = 0 ∧ win0_5.index t (2 : Fin 3) = 0 :=
  (by decide +kernel : ∀ t : Fin grid0.N, _)

/-! ## Each input block, read as a matrix, is the point's batch of its argument -/

/-- The block of `u` at point `t`. -/
theorem u_block (c : Dev nD) (t : Fin cfg0.N) :
    mat (iblk m c 0 t) = slab (V m c main_arg0) (batch t) := by
  obtain ⟨e0, e1, e2⟩ := idx_0 t
  funext i
  show V m c main_arg0 (((cfg0.win 0).blk t).view.emb (ix3 0 (i 0) (i 1))) = V m c main_arg0 (ix3 (batch t) (i 0) (i 1))
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 512 + 1 * (i 0).val = (i 0).val; omega
  | ⟨2, _⟩ => show win0_0.index t (2 : Fin 3) * 512 + 1 * (i 1).val = (i 1).val; omega

/-- The block of `λ` at point `t`. -/
theorem lam_block (c : Dev nD) (t : Fin cfg0.N) :
    mat (iblk m c 1 t) = slab (V m c main_arg1) (batch t) := by
  obtain ⟨e0, e1, e2⟩ := idx_1 t
  funext i
  show V m c main_arg1 (((cfg0.win 1).blk t).view.emb (ix3 0 (i 0) (i 1))) = V m c main_arg1 (ix3 (batch t) (i 0) (i 1))
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 512 + 1 * (i 0).val = (i 0).val; omega
  | ⟨2, _⟩ => show win0_1.index t (2 : Fin 3) * 512 + 1 * (i 1).val = (i 1).val; omega

/-- The block of `A` at point `t`. -/
theorem A_block (c : Dev nD) (t : Fin cfg0.N) :
    mat (iblk m c 2 t) = slab (V m c main_arg2) (batch t) := by
  obtain ⟨e0, e1, e2⟩ := idx_2 t
  funext i
  show V m c main_arg2 (((cfg0.win 2).blk t).view.emb (ix3 0 (i 0) (i 1))) = V m c main_arg2 (ix3 (batch t) (i 0) (i 1))
  refine congrArg (V m c main_arg2) (funext fun a => Fin.ext ?_)
  match a with
  | ⟨0, _⟩ => show win0_2.index t (0 : Fin 3) * 1 + 1 * 0 = t.val; omega
  | ⟨1, _⟩ => show win0_2.index t (1 : Fin 3) * 512 + 1 * (i 0).val = (i 0).val; omega
  | ⟨2, _⟩ => show win0_2.index t (2 : Fin 3) * 512 + 1 * (i 1).val = (i 1).val; omega

/-- The block of `G` at point `t`. -/
theorem G_block (c : Dev nD) (t : Fin cfg0.N) :
    mat (iblk m c 3 t) = slab (V m c main_arg3) (batch t) := by
  obtain ⟨e0, e1, e2⟩ := idx_3 t
  funext i
  show V m c main_arg3 (((cfg0.win 3).blk t).view.emb (ix3 0 (i 0) (i 1))) = V m c main_arg3 (ix3 (batch t) (i 0) (i 1))
  refine congrArg (V m c main_arg3) (funext fun a => Fin.ext ?_)
  match a with
  | ⟨0, _⟩ => show win0_3.index t (0 : Fin 3) * 1 + 1 * 0 = t.val; omega
  | ⟨1, _⟩ => show win0_3.index t (1 : Fin 3) * 512 + 1 * (i 0).val = (i 0).val; omega
  | ⟨2, _⟩ => show win0_3.index t (2 : Fin 3) * 512 + 1 * (i 1).val = (i 1).val; omega

/-! ## The first result: the forward velocity -/

/-- Entry `y` of output window 4's block at point `t` sits at `(t, y 1, y 2)` of its array. -/
theorem emb_4 (t : Fin cfg0.N) (y : S1x512x512.Idx) :
    ((cfg0.win 4).blk t).view.emb y = ix3 (batch t) (y 1) (y 2) := by
  obtain ⟨e0, e1, e2⟩ := idx_4 t
  have hy0 : (y 0).val < 1 := (y 0).isLt
  funext a; apply Fin.ext
  match a with
  | ⟨0, _⟩ => show win0_4.index t (0 : Fin 3) * 1 + 1 * (y 0).val = t.val; omega
  | ⟨1, _⟩ => show win0_4.index t (1 : Fin 3) * 512 + 1 * (y 1).val = (y 1).val; omega
  | ⟨2, _⟩ => show win0_4.index t (2 : Fin 3) * 512 + 1 * (y 2).val = (y 2).val; omega

/-- An index of the array is in point `t`'s block of output window 4 iff each coordinate is in the block's range. -/
theorem mem_blk_4 (t : Fin cfg0.N) (i : S64x512x512.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_v0_0).slice (win0_4.rect t)).set ↔ _
  rw [View.set_slice_whole, Rect.mem_set_unit]
  exact Iff.rfl

/-- Every index of the array is in the block of the point that is its batch. -/
theorem cover_4 (i : S64x512x512.Idx) :
    ∃ t : Fin cfg0.N, (cfg0.win 4).flush t = true ∧ i ∈ ((cfg0.win 4).blk t).view.set := by
  have hi0 : (i 0).val < 64 := (i 0).isLt
  have hi1 : (i 1).val < 512 := (i 1).isLt
  have hi2 : (i 2).val < 512 := (i 2).isLt
  have hlt : (i 0).val < cfg0.N := lt_of_lt_of_eq hi0 N_0.symm
  refine ⟨⟨(i 0).val, hlt⟩, flush0_4 _, ?_⟩
  rw [mem_blk_4]
  obtain ⟨e0, e1, e2⟩ := idx_4 ⟨(i 0).val, hlt⟩
  have e0' : win0_4.index ⟨(i 0).val, hlt⟩ (0 : Fin 3) = (i 0).val := e0
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 512 ≤ (i 1).val ∧ (i 1).val < win0_4.index _ (1 : Fin 3) * 512 + 512; omega
  | ⟨2, _⟩ => show win0_4.index _ (2 : Fin 3) * 512 ≤ (i 2).val ∧ (i 2).val < win0_4.index _ (2 : Fin 3) * 512 + 512; omega

/-- What point `t` writes back to the first result is block `t` of the forward velocity array of the arguments. -/
theorem flushed4_eq (c : Dev nD) (t : Fin cfg0.N) :
    (dats m 0 c).flushed 4 t
      = ((cfg0.win 4).blk t).view.read (Elt Ideal) (fwdArr (V m c main_arg0) (V m c main_arg2) (V m c main_arg3)) := by
  rw [Value.flushed4]
  unfold out0_4
  rw [View.canon_unit_zero zero_offsets]
  simp only [View.ld_unit_zero (S := S1x512x512) zero_offsets]
  funext y
  show k0_pay6 (F := Ideal) (iblk m c 0 t) (iblk m c 2 t) (iblk m c 3 t) y
    = fwdArr (V m c main_arg0) (V m c main_arg2) (V m c main_arg3) (((cfg0.win 4).blk t).view.emb y)
  refine (first_store_apply (iblk m c 0 t) (iblk m c 2 t) (iblk m c 3 t) y).trans ?_
  rw [u_block m c t, A_block m c t, G_block m c t, emb_4 t y]
  rfl

/-- The first result array after the run. -/
theorem final4 (c : Dev nD) :
    (dats m 0 c).arrAt 4 cfg0.N = fwdArr (V m c main_arg0) (V m c main_arg2) (V m c main_arg3) :=
  (dats m 0 c).arrAt_eq_of_cover 4 _ (fun t _ => flushed4_eq m c t) cover_4

/-! ## The second result: the adjoint velocity -/

/-- Entry `y` of output window 5's block at point `t` sits at `(t, y 1, y 2)` of its array. -/
theorem emb_5 (t : Fin cfg0.N) (y : S1x512x512.Idx) :
    ((cfg0.win 5).blk t).view.emb y = ix3 (batch t) (y 1) (y 2) := by
  obtain ⟨e0, e1, e2⟩ := idx_5 t
  have hy0 : (y 0).val < 1 := (y 0).isLt
  funext a; apply Fin.ext
  match a with
  | ⟨0, _⟩ => show win0_5.index t (0 : Fin 3) * 1 + 1 * (y 0).val = t.val; omega
  | ⟨1, _⟩ => show win0_5.index t (1 : Fin 3) * 512 + 1 * (y 1).val = (y 1).val; omega
  | ⟨2, _⟩ => show win0_5.index t (2 : Fin 3) * 512 + 1 * (y 2).val = (y 2).val; omega

/-- An index of the array is in point `t`'s block of output window 5 iff each coordinate is in the block's range. -/
theorem mem_blk_5 (t : Fin cfg0.N) (i : S64x512x512.Idx) :
    i ∈ ((cfg0.win 5).blk t).view.set ↔ ∀ a : Fin 3, win0_5.index t a * S1x512x512.size a ≤ (i a).val ∧ (i a).val < win0_5.index t a * S1x512x512.size a + S1x512x512.size a := by
  show i ∈ ((View.whole main_v0_1).slice (win0_5.rect t)).set ↔ _
  rw [View.set_slice_whole, Rect.mem_set_unit]
  exact Iff.rfl

/-- Every index of the array is in the block of the point that is its batch. -/
theorem cover_5 (i : S64x512x512.Idx) :
    ∃ t : Fin cfg0.N, (cfg0.win 5).flush t = true ∧ i ∈ ((cfg0.win 5).blk t).view.set := by
  have hi0 : (i 0).val < 64 := (i 0).isLt
  have hi1 : (i 1).val < 512 := (i 1).isLt
  have hi2 : (i 2).val < 512 := (i 2).isLt
  have hlt : (i 0).val < cfg0.N := lt_of_lt_of_eq hi0 N_0.symm
  refine ⟨⟨(i 0).val, hlt⟩, flush0_5 _, ?_⟩
  rw [mem_blk_5]
  obtain ⟨e0, e1, e2⟩ := idx_5 ⟨(i 0).val, hlt⟩
  have e0' : win0_5.index ⟨(i 0).val, hlt⟩ (0 : Fin 3) = (i 0).val := e0
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 512 ≤ (i 1).val ∧ (i 1).val < win0_5.index _ (1 : Fin 3) * 512 + 512; omega
  | ⟨2, _⟩ => show win0_5.index _ (2 : Fin 3) * 512 ≤ (i 2).val ∧ (i 2).val < win0_5.index _ (2 : Fin 3) * 512 + 512; omega

/-- What point `t` writes back to the second result is block `t` of the adjoint velocity array of the arguments. -/
theorem flushed5_eq (c : Dev nD) (t : Fin cfg0.N) :
    (dats m 0 c).flushed 5 t
      = ((cfg0.win 5).blk t).view.read (Elt Ideal)
          (adjArr (V m c main_arg0) (V m c main_arg1) (V m c main_arg2) (V m c main_arg3)) := by
  rw [Value.flushed5]
  unfold out0_5
  rw [View.canon_unit_zero zero_offsets]
  simp only [View.ld_unit_zero (S := S1x512x512) zero_offsets]
  funext y
  show k0_pay1 (F := Ideal) (k0_pay7 (iblk m c 0 t) (iblk m c 1 t) (iblk m c 2 t) (iblk m c 3 t)) y
    = adjArr (V m c main_arg0) (V m c main_arg1) (V m c main_arg2) (V m c main_arg3) (((cfg0.win 5).blk t).view.emb y)
  refine (second_store_apply (iblk m c 0 t) (iblk m c 1 t) (iblk m c 2 t) (iblk m c 3 t) y).trans ?_
  rw [u_block m c t, lam_block m c t, A_block m c t, G_block m c t, emb_5 t y]
  rfl

/-- The second result array after the run. -/
theorem final5 (c : Dev nD) :
    (dats m 0 c).arrAt 5 cfg0.N
      = adjArr (V m c main_arg0) (V m c main_arg1) (V m c main_arg2) (V m c main_arg3) :=
  (dats m 0 c).arrAt_eq_of_cover 5 _ (fun t _ => flushed5_eq m c t) cover_5

/-! ## The run -/

/-- Every weakly fair execution of the kernel's program ends with the two results at the velocity arrays of the
    arguments as launched, and the arguments unchanged. -/
theorem run : θ_run defs (onTc (τ := τ) (main (F := Ideal))) ⟨m, fun _ => 0, ρ⟩ fun r => ∀ c : Dev nD,
      r.2.mem ((c : Thread nD τ).loc main_v0_0)
        = fwdArr (m ((c : Thread nD τ).loc main_arg0)) (m ((c : Thread nD τ).loc main_arg2)) (m ((c : Thread nD τ).loc main_arg3))
      ∧ r.2.mem ((c : Thread nD τ).loc main_v0_1)
        = adjArr (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final4 m c), (h c).2.1.trans (final5 m c), (h c).2.2⟩)
    (Value.run_blocks m ρ)

end Cert.KernelIdeal.Whole

end
-- ==== Proof.RefValue.lean ====
/-
  What the reference computes, at the ideal values: the two velocity arrays of the specification.

  The reference works on all 64 batches at once. Each of its seven products contracts the last axis of the left
  array against the middle axis of the right one, batch by batch: entry `(b, n, p)` is `∑ k, X (b, n, k) · Y (b, k, p)`.
  A transposed factor is the array with its last two axes swapped, so a product with it reads the other factor's
  rows against rows, or columns against columns, exactly as the specification's three kinds of product do. The
  skew part is one half, splat over the array, times the array minus its swap. With the products, the swaps and
  the splat read this way, the reference's two results are the specification's arrays entry by entry.
-/
import proofs.«115201_j79233556677072_1_alg».proof.Proof.Gen.ReferenceIdeal.Read
import proofs.«115201_j79233556677072_1_alg».proof.Proof.Spec

noncomputable section

namespace Cert.ReferenceIdeal.RefValue

open Idealize.ShloMosaic Idealize.ShloMosaic.ValueIdx Cert.ReferenceIdeal Cert.ReferenceIdeal.Gen Cert.Velocity
open Cert.ReferenceIdeal.Read

/-- The batched product: entry `(b, n, p)` is `∑ k, X (b, n, k) · Y (b, k, p)`. -/
def bmul (X Y : Arr) : Arr := fun i => ∑ k : Fin 512, X (ix3 (i 0) (i 1) k) * Y (ix3 (i 0) k (i 2))

/-- The array with its last two axes swapped. -/
def swap (X : Arr) : Arr := fun i => X (ix3 (i 0) (i 2) (i 1))

/-- The host's product of two arrays is the batched product. -/
theorem dot_eq (X Y : FVec Ideal S64x512x512 .f32) :
    Host.dotGeneral dot_S64x512x512_S64x512x512_S64x512x512_2_1_1_2_0_0 none X Y = bmul X Y := by
  funext i
  refine (val_main_v10_apply X Y i).trans (Finset.sum_congr rfl fun k _ => ?_)
  have el : lidx_main_v10 i k = ix3 (i 0) (i 1) k := funext fun a => match a with
    | ⟨0, _⟩ => rfl
    | ⟨1, _⟩ => rfl
    | ⟨2, _⟩ => rfl
  have er : ridx_main_v10 i k = ix3 (i 0) k (i 2) := funext fun a => match a with
    | ⟨0, _⟩ => rfl
    | ⟨1, _⟩ => rfl
    | ⟨2, _⟩ => rfl
  rw [el, er]
  rfl

/-- The host's transposition swaps the last two axes. -/
theorem transpose_eq (X : (⟨S64x512x512, .f32⟩ : BufTy).Contents (Elt Ideal)) :
    transpose S64x512x512 [0, 2, 1] X transposes_S64x512x512_S64x512x512_0_2_1 = swap X := by
  funext i
  have h : transpose S64x512x512 [0, 2, 1] X transposes_S64x512x512_S64x512x512_0_2_1 i = X (idx_main_v0 i) :=
    val_main_v0_apply (F := Ideal) X i
  refine h.trans (congrArg X (funext fun a => ?_))
  match a with
  | ⟨0, _⟩ => rfl
  | ⟨1, _⟩ => rfl
  | ⟨2, _⟩ => rfl

/-- The splat of the constant one half. -/
theorem splat_half :
    broadcastInDim S64x512x512 ![] bcast_S_S64x512x512 (constant (F := Ideal) S_ .f32 0x3F000000#32) = fun _ => half := by
  funext i
  exact (val_main_v2_apply (F := Ideal) i).trans (val_main_cst_apply (F := Ideal) _)

/-- Each of the reference's four transpositions is the swap of its operand. -/
theorem swap_v0 (X : (⟨S64x512x512, .f32⟩ : BufTy).Contents (Elt Ideal)) : val_main_v0 (F := Ideal) X = swap X := transpose_eq X
theorem swap_v5 (X : (⟨S64x512x512, .f32⟩ : BufTy).Contents (Elt Ideal)) : val_main_v5 (F := Ideal) X = swap X := transpose_eq X
theorem swap_v11 (X : (⟨S64x512x512, .f32⟩ : BufTy).Contents (Elt Ideal)) : val_main_v11 (F := Ideal) X = swap X := transpose_eq X
theorem swap_v13 (X : (⟨S64x512x512, .f32⟩ : BufTy).Contents (Elt Ideal)) : val_main_v13 (F := Ideal) X = swap X := transpose_eq X

/-- The reference's first result is the forward velocity of every batch. -/
theorem first_result (x0 x2 x3 : (⟨S64x512x512, .f32⟩ : BufTy).Contents (Elt Ideal)) :
    val_main_v9 (F := Ideal) x0 x2 x3 = fwdArr x0 x2 x3 := by
  unfold val_main_v9 val_main_v8 val_main_v7 val_main_v6 val_main_v4 val_main_v3 val_main_v2 val_main_v1 val_main_cst
  rw [splat_half, swap_v0, swap_v5]
  simp only [dot_eq]
  funext i
  obtain ⟨b, n, p, rfl⟩ : ∃ (b : Fin 64) (n p : Fin 512), i = ix3 b n p := ⟨i 0, i 1, i 2, eq_ix3 i⟩
  rfl

/-- The reference's second result is the adjoint velocity of every batch. -/
theorem second_result (x0 x1 x2 x3 : (⟨S64x512x512, .f32⟩ : BufTy).Contents (Elt Ideal)) :
    val_main_v17 (F := Ideal) x0 x1 x2 x3 = adjArr x0 x1 x2 x3 := by
  unfold val_main_v17 val_main_v16 val_main_v15 val_main_v14 val_main_v12 val_main_v10
  rw [swap_v11, swap_v13]
  simp only [dot_eq]
  funext i
  obtain ⟨b, n, p, rfl⟩ : ∃ (b : Fin 64) (n p : Fin 512), i = ix3 b n p := ⟨i 0, i 1, i 2, eq_ix3 i⟩
  rfl

end Cert.ReferenceIdeal.RefValue

end
-- ==== Proof.lean ====
/-
  The kernel computes, batch by batch over a grid of 64 points, the forward and the adjoint velocity

    `dU = U Ω + (G − U (Uᵀ G))`,  `Ω = ½ (A − Aᵀ)`,        `dΛ = Λ A + (Λ Gᵀ + G Λᵀ) U`

  of four arrays of 64 matrices of 512 × 512 entries; the reference computes the same two arrays with batched
  products over the whole arrays. At the ideal values both are the same sums in the same arrangement: a product
  into a zero accumulator and the host's product are the plain sum over the contracted axis, a transposed factor
  is a swap of two coordinates, and the kernel's roundings of its factors to a shorter float format are the
  identity. So the two results agree entry by entry as extended reals, with no law of the extended reals beyond
  the definitions: the inputs' finiteness is never used.

  The modules: the specification (the two velocity arrays as functions of the arguments); the kernel's three kinds
  of product; the body's two stored blocks as the velocities of its loaded matrices; from the blocks to the whole
  result arrays after the kernel's run; the reference's two results as the same arrays. The kernel's frames are
  the generated ones; the reference's frame is its run with the results dropped; the ideal pass rewrote nothing.
-/
import proofs.«115201_j79233556677072_1_alg».proof.Defs
import proofs.«115201_j79233556677072_1_alg».proof.Proof.Gen.Kernel
import proofs.«115201_j79233556677072_1_alg».proof.Proof.Gen.Kernel.Skeleton
import proofs.«115201_j79233556677072_1_alg».proof.Proof.Gen.Kernel.Launch
import proofs.«115201_j79233556677072_1_alg».proof.Proof.Gen.Kernel.Points
import proofs.«115201_j79233556677072_1_alg».proof.Proof.Gen.Kernel.Frame
import proofs.«115201_j79233556677072_1_alg».proof.Proof.Gen.KernelIdeal
import proofs.«115201_j79233556677072_1_alg».proof.Proof.Gen.KernelIdeal.Skeleton
import proofs.«115201_j79233556677072_1_alg».proof.Proof.Gen.KernelIdeal.Launch
import proofs.«115201_j79233556677072_1_alg».proof.Proof.Gen.KernelIdeal.Points
import proofs.«115201_j79233556677072_1_alg».proof.Proof.Gen.KernelIdeal.Frame
import proofs.«115201_j79233556677072_1_alg».proof.Proof.Gen.ReferenceIdeal
import proofs.«115201_j79233556677072_1_alg».proof.Proof.Gen.Pre_finite_inputs
import proofs.«115201_j79233556677072_1_alg».proof.Proof.Gen.KernelIdeal.Value
import proofs.«115201_j79233556677072_1_alg».proof.Proof.Gen.ReferenceIdeal.Run
import proofs.«115201_j79233556677072_1_alg».proof.Proof.Gen.ReferenceIdeal.Read
import proofs.«115201_j79233556677072_1_alg».proof.Proof.Whole
import proofs.«115201_j79233556677072_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference's run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- From memories that agree on the arguments, the kernel ends with its two results at the forward and the adjoint
    velocity arrays of the arguments, and the reference ends with its two results at the same arrays. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v9_eq, Cert.ReferenceIdeal.RefValue.first_result,
      (hagree c).1, (hagree c).2.2.1, (hagree c).2.2.2.1]
  · rw [(h c).2.1, Cert.ReferenceIdeal.Read.val_main_v17_eq, Cert.ReferenceIdeal.RefValue.second_result,
      (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
